-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x4096x128 : Shape := ⟨4, ![2, 32, 4096, 128]⟩
abbrev S2x32x16x128 : Shape := ⟨4, ![2, 32, 16, 128]⟩
abbrev S_ : Shape := ⟨0, ![]⟩

class Facts : Prop where
  bcast_S_S2x32x4096x128 : S_.BroadcastsInDim S2x32x4096x128 (![] : Fin 0 → Fin S2x32x4096x128.rank)
  reducesTo_S2x32x4096x128_S_d0_1_2_3 : S2x32x4096x128.ReducesTo [0, 1, 2, 3] S_
  h_S_ : 0 < S_.numel
  bcast_S_S2x32x16x128 : S_.BroadcastsInDim S2x32x16x128 (![] : Fin 0 → Fin S2x32x16x128.rank)
  reducesTo_S2x32x16x128_S_d0_1_2_3 : S2x32x16x128.ReducesTo [0, 1, 2, 3] S_

variable [Facts]

def fn_part1 {F : FTy → Type} [FloatOps F] (main_v13 : IVec S_ 1) (main_v16 : IVec S2x32x16x128 1) : IVec S_ 1 :=
  let main_c_5 : IVec S_ 1 := constantI S_ 1 1#1
  let main_v17 : IVec S_ 1 := (fun x v => Host.reduce IntOp.andi x v reducesTo_S2x32x16x128_S_d0_1_2_3 h_S_) main_v16 main_c_5
  let main_v18 : IVec S_ 1 := andi main_v13 main_v17
  main_v18

def fn {F : FTy → Type} [FloatOps F] (main_arg0 : FVec F S2x32x4096x128 .f32) (main_arg1 : FVec F S2x32x4096x128 .f32) (main_arg2 : FVec F S2x32x16x128 .f32) (main_arg3 : FVec F S2x32x16x128 .f32) : IVec S_ 1 :=
  let main_v0 : FVec F S2x32x4096x128 .f32 := Host.absf main_arg0
  let main_cst : FVec F S_ .f32 := constant S_ .f32 0x7F800000#32
  let main_v1 : FVec F S2x32x4096x128 .f32 := broadcastInDim S2x32x4096x128 ![] bcast_S_S2x32x4096x128 main_cst
  let main_v2 : IVec S2x32x4096x128 1 := cmpf .olt main_v0 main_v1
  let main_c : IVec S_ 1 := constantI S_ 1 1#1
  let main_v3 : IVec S_ 1 := (fun x v => Host.reduce IntOp.andi x v reducesTo_S2x32x4096x128_S_d0_1_2_3 h_S_) main_v2 main_c
  let main_v4 : FVec F S2x32x4096x128 .f32 := Host.absf main_arg1
  let main_cst_0 : FVec F S_ .f32 := constant S_ .f32 0x7F800000#32
  let main_v5 : FVec F S2x32x4096x128 .f32 := broadcastInDim S2x32x4096x128 ![] bcast_S_S2x32x4096x128 main_cst_0
  let main_v6 : IVec S2x32x4096x128 1 := cmpf .olt main_v4 main_v5
  let main_c_1 : IVec S_ 1 := constantI S_ 1 1#1
  let main_v7 : IVec S_ 1 := (fun x v => Host.reduce IntOp.andi x v reducesTo_S2x32x4096x128_S_d0_1_2_3 h_S_) main_v6 main_c_1
  let main_v8 : IVec S_ 1 := andi main_v3 main_v7
  let main_v9 : FVec F S2x32x16x128 .f32 := Host.absf main_arg2
  let main_cst_2 : FVec F S_ .f32 := constant S_ .f32 0x7F800000#32
  let main_v10 : FVec F S2x32x16x128 .f32 := broadcastInDim S2x32x16x128 ![] bcast_S_S2x32x16x128 main_cst_2
  let main_v11 : IVec S2x32x16x128 1 := cmpf .olt main_v9 main_v10
  let main_c_3 : IVec S_ 1 := constantI S_ 1 1#1
  let main_v12 : IVec S_ 1 := (fun x v => Host.reduce IntOp.andi x v reducesTo_S2x32x16x128_S_d0_1_2_3 h_S_) main_v11 main_c_3
  let main_v13 : IVec S_ 1 := andi main_v8 main_v12
  let main_v14 : FVec F S2x32x16x128 .f32 := Host.absf main_arg3
  let main_cst_4 : FVec F S_ .f32 := constant S_ .f32 0x7F800000#32
  let main_v15 : FVec F S2x32x16x128 .f32 := broadcastInDim S2x32x16x128 ![] bcast_S_S2x32x16x128 main_cst_4
  let main_v16 : IVec S2x32x16x128 1 := cmpf .olt main_v14 main_v15
  fn_part1 (F := F) main_v13 main_v16
-- ==== Kernel.lean ====
abbrev S2x32x4096x128 : Shape := ⟨4, ![2, 32, 4096, 128]⟩
abbrev S2x32x16x128 : Shape := ⟨4, ![2, 32, 16, 128]⟩
abbrev S64x4096x128 : Shape := ⟨3, ![64, 4096, 128]⟩
abbrev S64x16x128 : Shape := ⟨3, ![64, 16, 128]⟩
abbrev S1x4096x128 : Shape := ⟨3, ![1, 4096, 128]⟩
abbrev S1x16x128 : Shape := ⟨3, ![1, 16, 128]⟩
abbrev S1x4080x128 : Shape := ⟨3, ![1, 4080, 128]⟩
abbrev S4080x128 : Shape := ⟨2, ![4080, 128]⟩
abbrev S16x128 : Shape := ⟨2, ![16, 128]⟩

abbrev nBuf : Space → Nat
  | .hbm => 12
  | .vmem => 12
  | .smem => 0
  | _ => 0

abbrev bufTy : (tb : Table) → Fin (tcTables nBuf tb) → BufTy
  | .hbm, ⟨0, _⟩ => ⟨S2x32x4096x128, .f32⟩
  | .hbm, ⟨1, _⟩ => ⟨S2x32x4096x128, .f32⟩
  | .hbm, ⟨2, _⟩ => ⟨S2x32x16x128, .f32⟩
  | .hbm, ⟨3, _⟩ => ⟨S2x32x16x128, .f32⟩
  | .hbm, ⟨4, _⟩ => ⟨S64x4096x128, .f32⟩
  | .hbm, ⟨5, _⟩ => ⟨S64x4096x128, .f32⟩
  | .hbm, ⟨6, _⟩ => ⟨S64x16x128, .f32⟩
  | .hbm, ⟨7, _⟩ => ⟨S64x16x128, .f32⟩
  | .hbm, ⟨8, _⟩ => ⟨S64x4096x128, .f32⟩
  | .hbm, ⟨9, _⟩ => ⟨S64x4096x128, .f32⟩
  | .hbm, ⟨10, _⟩ => ⟨S2x32x4096x128, .f32⟩
  | .hbm, ⟨11, _⟩ => ⟨S2x32x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | _, _ => ⟨S2x32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x32x4096x128_S64x4096x128 : S2x32x4096x128.ShapeCasts S64x4096x128
  shapeCasts_S2x32x16x128_S64x16x128 : S2x32x16x128.ShapeCasts S64x16x128
  inb_S1x4096x128_S1x4080x128_0_16_0 : ∀ a, (![0, 16, 0] : Fin 3 → Nat) a + S1x4080x128.size a ≤ S1x4096x128.size a
  h_S1x4080x128 : 0 < S1x4080x128.numel
  shapeCasts_S1x4080x128_S4080x128 : S1x4080x128.ShapeCasts S4080x128
  inb_S1x4096x128_S1x4080x128_0_0_0 : ∀ a, (![0, 0, 0] : Fin 3 → Nat) a + S1x4080x128.size a ≤ S1x4096x128.size a
  shapeCasts_S4080x128_S1x4080x128 : S4080x128.ShapeCasts S1x4080x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  inb_S1x4096x128_S1x16x128_0_4080_0 : ∀ a, (![0, 4080, 0] : Fin 3 → Nat) a + S1x16x128.size a ≤ S1x4096x128.size a
  shapeCasts_S16x128_S1x16x128 : S16x128.ShapeCasts S1x16x128
  shapeCasts_S64x4096x128_S2x32x4096x128 : S64x4096x128.ShapeCasts S2x32x4096x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S64x4096x128.size a
  hwx0_0 : ∀ i : grid0.Coords, EltTy.bits .f32 = 32 ∨ (Rect.block (s := S64x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S64x4096x128.size a
  hwx0_1 : ∀ i : grid0.Coords, EltTy.bits .f32 = 32 ∨ (Rect.block (s := S64x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S64x16x128.size a
  hwx0_2 : ∀ i : grid0.Coords, EltTy.bits .f32 = 32 ∨ (Rect.block (s := S64x16x128) S1x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x128.size a ≤ S64x16x128.size a
  hwx0_3 : ∀ i : grid0.Coords, EltTy.bits .f32 = 32 ∨ (Rect.block (s := S64x16x128) S1x16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x128.size a ≤ S64x4096x128.size a
  hwx0_4 : ∀ i : grid0.Coords, EltTy.bits .f32 = 32 ∨ (Rect.block (s := S64x4096x128) S1x4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x128.size a ≤ S64x4096x128.size a
  hwx0_5 : ∀ i : grid0.Coords, EltTy.bits .f32 = 32 ∨ (Rect.block (s := S64x4096x128) S1x4096x128.size (cc0_transform_5 i) (hinb0_5 i)).WholeWords (EltTy.packing .f32)

variable [Facts₀]

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x32x4096x128 : Shape := ⟨4, ![2, 32, 4096, 128]⟩
abbrev S2x32x16x128 : Shape := ⟨4, ![2, 32, 16, 128]⟩
abbrev S2x32x4112x128 : Shape := ⟨4, ![2, 32, 4112, 128]⟩

abbrev nBuf : Space → Nat
  | .hbm => 8
  | .vmem => 0
  | .smem => 0
  | _ => 0

abbrev bufTy : (tb : Table) → Fin (tcTables nBuf tb) → BufTy
  | .hbm, ⟨0, _⟩ => ⟨S2x32x4096x128, .f32⟩
  | .hbm, ⟨1, _⟩ => ⟨S2x32x4096x128, .f32⟩
  | .hbm, ⟨2, _⟩ => ⟨S2x32x16x128, .f32⟩
  | .hbm, ⟨3, _⟩ => ⟨S2x32x16x128, .f32⟩
  | .hbm, ⟨4, _⟩ => ⟨S2x32x4112x128, .f32⟩
  | .hbm, ⟨5, _⟩ => ⟨S2x32x4096x128, .f32⟩
  | .hbm, ⟨6, _⟩ => ⟨S2x32x4112x128, .f32⟩
  | .hbm, ⟨7, _⟩ => ⟨S2x32x4096x128, .f32⟩
  | _, _ => ⟨S2x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  concatenates_S2x32x4096x128_S2x32x16x128_S2x32x4112x128_d2 : Shape.Concatenates [S2x32x4096x128, S2x32x16x128] S2x32x4112x128 2
  slices_S2x32x4112x128_S2x32x4096x128_0_0_16_0 : S2x32x4112x128.Slices ![0, 0, 16, 0] S2x32x4096x128

variable [Facts₀]

class Facts : Prop extends Facts₀ where

variable [Facts]
-- ==== Proof.SlideSpec.lean ====
/-
  The sliding window of a key/value cache, as functions of indices (no program is imported here).

  A cache holds 4096 rows per (batch, head); 16 fresh rows arrive. The new cache drops the 16 oldest rows and appends
  the fresh ones: row `s` of the result is row `s + 16` of the old cache while `s < 4080`, and row `s - 4080` of the
  fresh rows from there on (`slide`). The same function is written for the arrays with (batch, head) flattened into
  one axis of 64 (`slideRows`) and for one (batch, head) pair's slab (`slideBlock`).

  Two facts join the programs to it. Joining the fresh rows after the cache along the row axis and keeping rows
  16 … 4111 is `slide` (`slice_concat`): a kept row `s` is joined row `16 + s`, which lies in the cache when
  `16 + s < 4096` and in the fresh rows, at `16 + s - 4096`, otherwise. And flattening (batch, head), sliding the
  64 slabs, and unflattening is `slide` again (`reshape_slideRows`): a reshape keeps row-major positions, and
  position `((b·32 + h)·4096 + s)·128 + d` is read the same way before and after the rows move.
-/
import Idealize.ShloMosaic.Lib.Pipeline.Value
import Idealize.ShloMosaic.Lib.ValueIdx

namespace Cert.Slide

open Idealize.ShloMosaic Idealize.ShloMosaic.ValueIdx

variable {α : Type}

/-- The cache: (batch, head, row, feature). -/
abbrev Cache : Shape := ⟨4, ![2, 32, 4096, 128]⟩
/-- The fresh rows. -/
abbrev Fresh : Shape := ⟨4, ![2, 32, 16, 128]⟩
/-- The cache with the fresh rows joined after it. -/
abbrev Joined : Shape := ⟨4, ![2, 32, 4112, 128]⟩
/-- The cache with (batch, head) flattened. -/
abbrev CacheRows : Shape := ⟨3, ![64, 4096, 128]⟩
/-- The fresh rows with (batch, head) flattened. -/
abbrev FreshRows : Shape := ⟨3, ![64, 16, 128]⟩
/-- One (batch, head) pair's slab of the cache. -/
abbrev CacheBlock : Shape := ⟨3, ![1, 4096, 128]⟩
/-- One (batch, head) pair's fresh rows. -/
abbrev FreshBlock : Shape := ⟨3, ![1, 16, 128]⟩

/-- The new cache: the old one moved up by 16 rows, the fresh rows in the last 16. -/
def slide (old : Cache.Idx → α) (new : Fresh.Idx → α) : Cache.Idx → α := fun i =>
  if h : (i 2).val < 4080 then
    old (ix4 (n0 := 2) (n1 := 32) (n2 := 4096) (n3 := 128) (i 0) (i 1) ⟨(i 2).val + 16, by omega⟩ (i 3))
  else
    new (ix4 (n0 := 2) (n1 := 32) (n2 := 16) (n3 := 128) (i 0) (i 1)
      ⟨(i 2).val - 4080, by have h2 : (i 2).val < 4096 := (i 2).isLt; omega⟩ (i 3))

/-- The same over the flattened arrays. -/
def slideRows (old : CacheRows.Idx → α) (new : FreshRows.Idx → α) : CacheRows.Idx → α := fun i =>
  if h : (i 1).val < 4080 then
    old (ix3 (n0 := 64) (n1 := 4096) (n2 := 128) (i 0) ⟨(i 1).val + 16, by omega⟩ (i 2))
  else
    new (ix3 (n0 := 64) (n1 := 16) (n2 := 128) (i 0)
      ⟨(i 1).val - 4080, by have h2 : (i 1).val < 4096 := (i 1).isLt; omega⟩ (i 2))

/-- The same over one slab. -/
def slideBlock (old : CacheBlock.Idx → α) (new : FreshBlock.Idx → α) : CacheBlock.Idx → α := fun i =>
  if h : (i 1).val < 4080 then
    old (ix3 (n0 := 1) (n1 := 4096) (n2 := 128) (i 0) ⟨(i 1).val + 16, by omega⟩ (i 2))
  else
    new (ix3 (n0 := 1) (n1 := 16) (n2 := 128) (i 0)
      ⟨(i 1).val - 4080, by have h2 : (i 1).val < 4096 := (i 1).isLt; omega⟩ (i 2))

/-! ## The three functions at explicit coordinates -/

theorem slide_lo (old : Cache.Idx → α) (new : Fresh.Idx → α) (b : Fin 2) (h : Fin 32) (s : Fin 4096) (d : Fin 128)
    (hs : s.val < 4080) : slide old new (ix4 b h s d) = old (ix4 b h ⟨s.val + 16, by omega⟩ d) := by
  unfold slide; exact dif_pos hs

theorem slide_hi (old : Cache.Idx → α) (new : Fresh.Idx → α) (b : Fin 2) (h : Fin 32) (s : Fin 4096) (d : Fin 128)
    (hs : ¬ s.val < 4080) : slide old new (ix4 b h s d) = new (ix4 b h ⟨s.val - 4080, by have := s.isLt; omega⟩ d) := by
  unfold slide; exact dif_neg hs

theorem slideRows_lo (old : CacheRows.Idx → α) (new : FreshRows.Idx → α) (p : Fin 64) (s : Fin 4096) (d : Fin 128)
    (hs : s.val < 4080) : slideRows old new (ix3 p s d) = old (ix3 p ⟨s.val + 16, by omega⟩ d) := by
  unfold slideRows; exact dif_pos hs

theorem slideRows_hi (old : CacheRows.Idx → α) (new : FreshRows.Idx → α) (p : Fin 64) (s : Fin 4096) (d : Fin 128)
    (hs : ¬ s.val < 4080) : slideRows old new (ix3 p s d) = new (ix3 p ⟨s.val - 4080, by have := s.isLt; omega⟩ d) := by
  unfold slideRows; exact dif_neg hs

theorem slideBlock_lo (old : CacheBlock.Idx → α) (new : FreshBlock.Idx → α) (p : Fin 1) (s : Fin 4096) (d : Fin 128)
    (hs : s.val < 4080) : slideBlock old new (ix3 p s d) = old (ix3 p ⟨s.val + 16, by omega⟩ d) := by
  unfold slideBlock; exact dif_pos hs

theorem slideBlock_hi (old : CacheBlock.Idx → α) (new : FreshBlock.Idx → α) (p : Fin 1) (s : Fin 4096) (d : Fin 128)
    (hs : ¬ s.val < 4080) : slideBlock old new (ix3 p s d) = new (ix3 p ⟨s.val - 4080, by have := s.isLt; omega⟩ d) := by
  unfold slideBlock; exact dif_neg hs

/-- A slab index in the last 16 rows reads the fresh row 4080 below it. -/
theorem slideBlock_of_fresh (x0 : CacheBlock.Idx → α) (x2 : FreshBlock.Idx → α) (j : CacheBlock.Idx) (k : FreshBlock.Idx)
    (h0 : (k 0).val = (j 0).val) (h1 : (k 1).val + 4080 = (j 1).val) (h2 : (k 2).val = (j 2).val) :
    slideBlock x0 x2 j = x2 k := by
  obtain ⟨p, s, d, rfl⟩ : ∃ (p : Fin 1) (s : Fin 4096) (d : Fin 128), j = ix3 p s d := ⟨j 0, j 1, j 2, eq_ix3 j⟩
  have h1' : (k 1).val + 4080 = s.val := h1
  rw [slideBlock_hi x0 x2 p s d (by omega)]
  refine congrArg x2 (funext fun a => Fin.ext ?_)
  match a with
  | ⟨0, _⟩ => exact h0.symm
  | ⟨1, _⟩ => show s.val - 4080 = (k 1).val; omega
  | ⟨2, _⟩ => exact h2.symm

/-- A slab index in the first 4080 rows reads the cache row 16 above it. -/
theorem slideBlock_of_cache (x0 : CacheBlock.Idx → α) (x2 : FreshBlock.Idx → α) (j k : CacheBlock.Idx)
    (h0 : (k 0).val = (j 0).val) (h1 : (k 1).val = (j 1).val + 16) (h2 : (k 2).val = (j 2).val) :
    slideBlock x0 x2 j = x0 k := by
  obtain ⟨p, s, d, rfl⟩ : ∃ (p : Fin 1) (s : Fin 4096) (d : Fin 128), j = ix3 p s d := ⟨j 0, j 1, j 2, eq_ix3 j⟩
  have hk : (k 1).val < 4096 := (k 1).isLt
  have h1' : (k 1).val = s.val + 16 := h1
  rw [slideBlock_lo x0 x2 p s d (by omega)]
  refine congrArg x0 (funext fun a => Fin.ext ?_)
  match a with
  | ⟨0, _⟩ => exact h0.symm
  | ⟨1, _⟩ => exact h1'.symm
  | ⟨2, _⟩ => exact h2.symm

/-- Slab `q` of the slid rows is the slide of slab `q` of the cache and slab `q` of the fresh rows. -/
theorem slideRows_slab (old : CacheRows.Idx → α) (new : FreshRows.Idx → α) (cb : CacheBlock.Idx → α)
    (fb : FreshBlock.Idx → α) (q : Fin 64)
    (hcb : ∀ (p : Fin 1) (s : Fin 4096) (d : Fin 128), cb (ix3 p s d) = old (ix3 q s d))
    (hfb : ∀ (p : Fin 1) (s : Fin 16) (d : Fin 128), fb (ix3 p s d) = new (ix3 q s d))
    (p : Fin 1) (s : Fin 4096) (d : Fin 128) : slideBlock cb fb (ix3 p s d) = slideRows old new (ix3 q s d) := by
  by_cases hlo : s.val < 4080
  · rw [slideBlock_lo cb fb p s d hlo, slideRows_lo old new q s d hlo]; exact hcb p _ d
  · rw [slideBlock_hi cb fb p s d hlo, slideRows_hi old new q s d hlo]; exact hfb p _ d

/-! ## The reference's form: join, then keep rows 16 … 4111 -/

/-- Kept row `s` is joined row `16 + s`: a cache row while `16 + s < 4096`, fresh row `16 + s - 4096` after. -/
theorem slice_concat (old : Cache.Idx → α) (new : Fresh.Idx → α)
    (hc : Shape.Concatenates [Cache, Fresh] Joined 2) (hs : Joined.Slices ![0, 0, 16, 0] Cache) :
    extractStridedSlice Cache ![0, 0, 16, 0] (concatenate Joined 2 [⟨Cache, old⟩, ⟨Fresh, new⟩] hc) hs
      = slide old new := by
  funext i
  obtain ⟨b, h, s, d, rfl⟩ : ∃ (b : Fin 2) (h : Fin 32) (s : Fin 4096) (d : Fin 128), i = ix4 b h s d :=
    ⟨i 0, i 1, i 2, i 3, eq_ix4 i⟩
  have hs4 : s.val < 4096 := s.isLt
  refine (extractStridedSlice_apply ![0, 0, 16, 0] _ hs (ix4 b h s d)
    (ix4 (n0 := 2) (n1 := 32) (n2 := 4112) (n3 := 128) b h ⟨16 + s.val, by omega⟩ d) (fun a => ?_)).trans ?_
  · match a with
    | ⟨0, _⟩ => show b.val = 0 + b.val; omega
    | ⟨1, _⟩ => show h.val = 0 + h.val; omega
    | ⟨2, _⟩ => show 16 + s.val = 16 + s.val; rfl
    | ⟨3, _⟩ => show d.val = 0 + d.val; omega
  · by_cases hlo : s.val < 4080
    · rw [slide_lo old new b h s d hlo]
      exact concatenate_pair_apply_left (2 : Fin Joined.rank) old new hc _ rfl _ (fun a => match a with
        | ⟨0, _⟩ => rfl
        | ⟨1, _⟩ => rfl
        | ⟨2, _⟩ => by show s.val + 16 = 16 + s.val; omega
        | ⟨3, _⟩ => rfl)
    · rw [slide_hi old new b h s d hlo]
      exact concatenate_pair_apply_right (2 : Fin Joined.rank) old new hc _ rfl rfl _ (fun a ha => match a, ha with
        | ⟨0, _⟩, _ => rfl
        | ⟨1, _⟩, _ => rfl
        | ⟨2, _⟩, ha => absurd rfl ha
        | ⟨3, _⟩, _ => rfl)
        (by show (s.val - 4080) + 4096 = 16 + s.val; omega)

/-! ## The kernel's form: flatten (batch, head), slide the 64 slabs, unflatten -/

/-- Flattening reads (b, h, s, d) at (32·b + h, s, d): the same row-major position. -/
theorem flatten_cache (x : Cache.Idx → α) (h1 : Cache.ShapeCasts CacheRows) (b : Fin 2) (h : Fin 32) (s : Fin 4096)
    (d : Fin 128) (p : Fin 64) (hp : p.val = b.val * 32 + h.val) :
    shapeCast CacheRows x h1 (ix3 p s d) = x (ix4 b h s d) := by
  refine shapeCast_apply x h1 _ _ ?_
  rw [Shape.rowMajor_val_three, Shape.rowMajor_val_four]
  show ((b.val * 32 + h.val) * 4096 + s.val) * 128 + d.val = (p.val * 4096 + s.val) * 128 + d.val
  rw [hp]

theorem flatten_fresh (x : Fresh.Idx → α) (h2 : Fresh.ShapeCasts FreshRows) (b : Fin 2) (h : Fin 32) (s : Fin 16)
    (d : Fin 128) (p : Fin 64) (hp : p.val = b.val * 32 + h.val) :
    shapeCast FreshRows x h2 (ix3 p s d) = x (ix4 b h s d) := by
  refine shapeCast_apply x h2 _ _ ?_
  rw [Shape.rowMajor_val_three, Shape.rowMajor_val_four]
  show ((b.val * 32 + h.val) * 16 + s.val) * 128 + d.val = (p.val * 16 + s.val) * 128 + d.val
  rw [hp]

/-- Unflattening reads (32·b + h, s, d) back at (b, h, s, d). -/
theorem unflatten_cache (y : CacheRows.Idx → α) (h3 : CacheRows.ShapeCasts Cache) (b : Fin 2) (h : Fin 32) (s : Fin 4096)
    (d : Fin 128) (p : Fin 64) (hp : p.val = b.val * 32 + h.val) :
    shapeCast Cache y h3 (ix4 b h s d) = y (ix3 p s d) := by
  refine shapeCast_apply y h3 _ _ ?_
  rw [Shape.rowMajor_val_three, Shape.rowMajor_val_four]
  show (p.val * 4096 + s.val) * 128 + d.val = ((b.val * 32 + h.val) * 4096 + s.val) * 128 + d.val
  rw [hp]

/-- Sliding commutes with flattening (batch, head): the rows move inside each (batch, head) pair's slab. -/
theorem reshape_slideRows (old : Cache.Idx → α) (new : Fresh.Idx → α)
    (h1 : Cache.ShapeCasts CacheRows) (h2 : Fresh.ShapeCasts FreshRows) (h3 : CacheRows.ShapeCasts Cache) :
    shapeCast Cache (slideRows (shapeCast CacheRows old h1) (shapeCast FreshRows new h2)) h3 = slide old new := by
  funext i
  obtain ⟨b, h, s, d, rfl⟩ : ∃ (b : Fin 2) (h : Fin 32) (s : Fin 4096) (d : Fin 128), i = ix4 b h s d :=
    ⟨i 0, i 1, i 2, i 3, eq_ix4 i⟩
  have hb : b.val < 2 := b.isLt
  have hh : h.val < 32 := h.isLt
  have hp : (⟨b.val * 32 + h.val, by omega⟩ : Fin 64).val = b.val * 32 + h.val := rfl
  refine (unflatten_cache _ h3 b h s d ⟨b.val * 32 + h.val, by omega⟩ hp).trans ?_
  by_cases hlo : s.val < 4080
  · rw [slideRows_lo _ _ _ s d hlo, slide_lo old new b h s d hlo]
    exact flatten_cache old h1 b h _ d _ hp
  · rw [slideRows_hi _ _ _ s d hlo, slide_hi old new b h s d hlo]
    exact flatten_fresh new h2 b h _ d _ hp

end Cert.Slide
-- ==== Proof.KernelSlab.lean ====
/-
  What one grid point of the kernel leaves in an output slab.

  At a grid point the body copies rows 16 … 4095 of the cache slab into rows 0 … 4079 of the output slab and the 16
  fresh rows into rows 4080 … 4095, once for the keys and once for the values. The two stores cover the slab, and
  each carries its part of the slide of the two input slabs (`pieces_slab`); so the output slab is that slide
  (`body_k`, `body_v`). What the body loads back from the output slab before each store is never used.
-/
import proofs.«107594_j4810363372411_1_alg».proof.Proof.Gen.KernelIdeal.Frame
import proofs.«107594_j4810363372411_1_alg».proof.Proof.SlideSpec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Slab

open Cert.KernelIdeal Cert.KernelIdeal.Gen Cert.Slide

variable {F : FTy → Type} [FloatOps F]

/-- The two stores of one output slab agree with the slide of the input slabs: the store into rows 0 … 4079 carries
    cache rows 16 … 4095 and the store into rows 4080 … 4095 carries the fresh rows (the casts that drop and restore
    the leading unit axis change nothing). -/
theorem pieces_slab (x0 : Vec F S1x4096x128 .f32) (x2 : Vec F S1x16x128 .f32) :
    ∀ p ∈ [(⟨Rect.unit ![0, 4080, 0] ![1, 16, 128] inb_S1x4096x128_S1x16x128_0_4080_0,
        k0_pay2 (View.ld x2 (Rect.unit ![0, 0, 0] ![1, 16, 128] inb_S1x16x128_S1x16x128_0_0_0))⟩ :
          View.Piece (Elt F) S1x4096x128 .f32),
      ⟨Rect.unit ![0, 0, 0] ![1, 4080, 128] inb_S1x4096x128_S1x4080x128_0_0_0,
        k0_pay1 (View.ld x0 (Rect.unit ![0, 16, 0] ![1, 4080, 128] inb_S1x4096x128_S1x4080x128_0_16_0))⟩],
      ∀ x : p.1.shape.Idx, p.2 x = slideBlock x0 x2 (p.1.emb x) := by
  intro p hp
  simp only [List.mem_cons, List.mem_nil_iff, or_false] at hp
  rcases hp with rfl | rfl
  · intro x
    show k0_pay2 (View.ld x2 (Rect.unit ![0, 0, 0] ![1, 16, 128] inb_S1x16x128_S1x16x128_0_0_0)) x
      = slideBlock x0 x2 ((Rect.unit ![0, 4080, 0] ![1, 16, 128] inb_S1x4096x128_S1x16x128_0_4080_0).emb x)
    refine (congrFun (shapeCast_shapeCast (View.ld x2 (Rect.unit ![0, 0, 0] ![1, 16, 128] inb_S1x16x128_S1x16x128_0_0_0))
      shapeCasts_S1x16x128_S16x128 shapeCasts_S16x128_S1x16x128) x).trans ?_
    refine (slideBlock_of_fresh x0 x2 _ _ ?_ ?_ ?_).symm
    · rfl
    · show (0 + 1 * (x 1).val) + 4080 = 4080 + 1 * (x 1).val
      omega
    · rfl
  · intro x
    show k0_pay1 (View.ld x0 (Rect.unit ![0, 16, 0] ![1, 4080, 128] inb_S1x4096x128_S1x4080x128_0_16_0)) x
      = slideBlock x0 x2 ((Rect.unit ![0, 0, 0] ![1, 4080, 128] inb_S1x4096x128_S1x4080x128_0_0_0).emb x)
    refine (congrFun (shapeCast_shapeCast (View.ld x0 (Rect.unit ![0, 16, 0] ![1, 4080, 128] inb_S1x4096x128_S1x4080x128_0_16_0))
      shapeCasts_S1x4080x128_S4080x128 shapeCasts_S4080x128_S1x4080x128) x).trans ?_
    refine (slideBlock_of_cache x0 x2 _ _ ?_ ?_ ?_).symm
    · rfl
    · show 16 + 1 * (x 1).val = (0 + 1 * (x 1).val) + 16
      omega
    · rfl

/-- One grid point leaves in the key output's slab the slide of its cache slab and its fresh rows: the two stores
    cover the slab, and each carries its part of the slide. -/
theorem body_k (c : Dev nD) (i : grid0.Coords) (a1 : Memref sig .tc .vmem S1x4096x128 .f32) (h1 : a1.IsWhole) (a2 : Memref sig .tc .vmem S1x4096x128 .f32) (h2 : a2.IsWhole) (a3 : Memref sig .tc .vmem S1x16x128 .f32) (h3 : a3.IsWhole) (a4 : Memref sig .tc .vmem S1x16x128 .f32) (h4 : a4.IsWhole) (a5 : Memref sig .tc .vmem S1x4096x128 .f32) (h5 : a5.IsWhole) (a6 : Memref sig .tc .vmem S1x4096x128 .f32) (h6 : a6.IsWhole)
    (x0 : Vec F S1x4096x128 .f32) (x1 : Vec F S1x4096x128 .f32) (x2 : Vec F S1x16x128 .f32) (x3 : Vec F S1x16x128 .f32) :
    out0_A_4 c i a1 h1 a2 h2 a3 h3 a4 h4 a5 h5 a6 h6 x0 x1 x2 x3 = slideBlock x0 x2 := by
  unfold out0_A_4
  rw [View.read_writes_eq_canon _ _ _ (cover0_A_4 c i a1 h1 a2 h2 a3 h3 a4 h4 a5 h5 a6 h6 x0 x1 x2 x3)]
  funext y
  refine View.canon_apply_of_pieces (slideBlock x0 x2) _ ?_ y (cover0_A_4 c i a1 h1 a2 h2 a3 h3 a4 h4 a5 h5 a6 h6 x0 x1 x2 x3 y)
  unfold kernelRun0_A
  dsimp only
  sl_unfold_words
  simp only [View.readAt_eq_ld, h1.read_unread, h3.read_unread]
  exact pieces_slab x0 x2

/-- And in the value output's slab the slide of the value cache slab and the fresh value rows. -/
theorem body_v (c : Dev nD) (i : grid0.Coords) (a1 : Memref sig .tc .vmem S1x4096x128 .f32) (h1 : a1.IsWhole) (a2 : Memref sig .tc .vmem S1x4096x128 .f32) (h2 : a2.IsWhole) (a3 : Memref sig .tc .vmem S1x16x128 .f32) (h3 : a3.IsWhole) (a4 : Memref sig .tc .vmem S1x16x128 .f32) (h4 : a4.IsWhole) (a5 : Memref sig .tc .vmem S1x4096x128 .f32) (h5 : a5.IsWhole) (a6 : Memref sig .tc .vmem S1x4096x128 .f32) (h6 : a6.IsWhole)
    (x0 : Vec F S1x4096x128 .f32) (x1 : Vec F S1x4096x128 .f32) (x2 : Vec F S1x16x128 .f32) (x3 : Vec F S1x16x128 .f32) :
    out0_A_5 c i a1 h1 a2 h2 a3 h3 a4 h4 a5 h5 a6 h6 x0 x1 x2 x3 = slideBlock x1 x3 := by
  unfold out0_A_5
  rw [View.read_writes_eq_canon _ _ _ (cover0_A_5 c i a1 h1 a2 h2 a3 h3 a4 h4 a5 h5 a6 h6 x0 x1 x2 x3)]
  funext y
  refine View.canon_apply_of_pieces (slideBlock x1 x3) _ ?_ y (cover0_A_5 c i a1 h1 a2 h2 a3 h3 a4 h4 a5 h5 a6 h6 x0 x1 x2 x3 y)
  unfold kernelRun0_A
  dsimp only
  sl_unfold_words
  simp only [View.readAt_eq_ld, h2.read_unread, h4.read_unread]
  exact pieces_slab x1 x3

end Cert.KernelIdeal.Slab

end
-- ==== Proof.KernelRun.lean ====
/-
  The kernel's run, read: both of its results are the slide of two of its arguments.

  Before the grid the program flattens (batch, head) of its four arguments; grid point `t` is given slab `t` of each
  flattened array and writes slab `t` of each output; after the grid the two outputs are unflattened. Each point's
  output slab is the slide of its input slabs (`body_k`, `body_v`), which is slab `t` of the slide of the flattened
  arrays (`flushed_k`, `flushed_v`); the 64 slabs cover the outputs (`cover_k`, `cover_v`), so each output array ends
  as the slide of the flattened arrays (`final_k`, `final_v`), and unflattened it is the slide of the arguments
  themselves (`Cert.Slide.reshape_slideRows`).
-/
import proofs.«107594_j4810363372411_1_alg».proof.Proof.KernelSlab
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Slab

open Cert.KernelIdeal Cert.KernelIdeal.Gen Cert.Slide

variable {F : FTy → Type} [FloatOps F]
variable (m : (ℓ : Loc nD τ sig) → Buf (Elt F) ℓ) (ρ : Dev nD → PrngReg)

/-! ## The flattened arrays the grid works on -/

/-- The key cache, the value cache, the fresh keys and the fresh values with (batch, head) flattened. -/
abbrev kCache (c : Dev nD) : Vec F S64x4096x128 .f32 := V m c main_v0
abbrev vCache (c : Dev nD) : Vec F S64x4096x128 .f32 := V m c main_v1
abbrev kFresh (c : Dev nD) : Vec F S64x16x128 .f32 := V m c main_v2
abbrev vFresh (c : Dev nD) : Vec F S64x16x128 .f32 := V m c main_v3

theorem kCache_eq (c : Dev nD) : kCache m c
    = shapeCast S64x4096x128 (m ((c : Thread nD τ).loc main_arg0)) shapeCasts_S2x32x4096x128_S64x4096x128 := by
  show StableHlo.after hostOps0 (fun b => m (c, b)) (Proc.devRef .tc main_v0) = _
  after_results
  rfl
theorem vCache_eq (c : Dev nD) : vCache m c
    = shapeCast S64x4096x128 (m ((c : Thread nD τ).loc main_arg1)) shapeCasts_S2x32x4096x128_S64x4096x128 := by
  show StableHlo.after hostOps0 (fun b => m (c, b)) (Proc.devRef .tc main_v1) = _
  after_results
  rfl
theorem kFresh_eq (c : Dev nD) : kFresh m c
    = shapeCast S64x16x128 (m ((c : Thread nD τ).loc main_arg2)) shapeCasts_S2x32x16x128_S64x16x128 := by
  show StableHlo.after hostOps0 (fun b => m (c, b)) (Proc.devRef .tc main_v2) = _
  after_results
  rfl
theorem vFresh_eq (c : Dev nD) : vFresh m c
    = shapeCast S64x16x128 (m ((c : Thread nD τ).loc main_arg3)) shapeCasts_S2x32x16x128_S64x16x128 := by
  show StableHlo.after hostOps0 (fun b => m (c, b)) (Proc.devRef .tc main_v3) = _
  after_results
  rfl

/-! ## Grid point `t` works on slab `t` -/

/-- Every window's block index at point `t` is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- Point `t`'s slab number. -/
abbrev slabOf (t : Fin cfg0.N) : Fin 64 := ⟨t.val, by have h := t.isLt; have hN : cfg0.N = 64 := N_0; omega⟩

/-- The key-cache slab point `t` is given is slab `t` of the flattened key cache. -/
theorem kCache_slab (c : Dev nD) (t : Fin cfg0.N) (p : Fin 1) (s : Fin 4096) (d : Fin 128) :
    (iblk m c 0 t : Vec F S1x4096x128 .f32) (ix3 p s d) = kCache m c (ix3 (slabOf t) s d) := by
  obtain ⟨⟨e0, e1, e2⟩, -⟩ := idx_facts t
  have hp : p.val < 1 := p.isLt
  unfold iblk
  rw [View.read_apply]
  show V m c main_v0 _ = V m c main_v0 _
  refine congrArg (V m c main_v0) (funext fun a => Fin.ext ?_)
  match a with
  | ⟨0, _⟩ => show win0_0.index t (0 : Fin 3) * 1 + 1 * p.val = t.val; omega
  | ⟨1, _⟩ => show win0_0.index t (1 : Fin 3) * 4096 + 1 * s.val = s.val; omega
  | ⟨2, _⟩ => show win0_0.index t (2 : Fin 3) * 128 + 1 * d.val = d.val; omega

theorem vCache_slab (c : Dev nD) (t : Fin cfg0.N) (p : Fin 1) (s : Fin 4096) (d : Fin 128) :
    (iblk m c 1 t : Vec F S1x4096x128 .f32) (ix3 p s d) = vCache m c (ix3 (slabOf t) s d) := by
  obtain ⟨-, ⟨e0, e1, e2⟩, -⟩ := idx_facts t
  have hp : p.val < 1 := p.isLt
  unfold iblk
  rw [View.read_apply]
  show V m c main_v1 _ = V m c main_v1 _
  refine congrArg (V m c main_v1) (funext fun a => Fin.ext ?_)
  match a with
  | ⟨0, _⟩ => show win0_1.index t (0 : Fin 3) * 1 + 1 * p.val = t.val; omega
  | ⟨1, _⟩ => show win0_1.index t (1 : Fin 3) * 4096 + 1 * s.val = s.val; omega
  | ⟨2, _⟩ => show win0_1.index t (2 : Fin 3) * 128 + 1 * d.val = d.val; omega

theorem kFresh_slab (c : Dev nD) (t : Fin cfg0.N) (p : Fin 1) (s : Fin 16) (d : Fin 128) :
    (iblk m c 2 t : Vec F S1x16x128 .f32) (ix3 p s d) = kFresh m c (ix3 (slabOf t) s d) := by
  obtain ⟨-, -, ⟨e0, e1, e2⟩, -⟩ := idx_facts t
  have hp : p.val < 1 := p.isLt
  unfold iblk
  rw [View.read_apply]
  show V m c main_v2 _ = V m c main_v2 _
  refine congrArg (V m c main_v2) (funext fun a => Fin.ext ?_)
  match a with
  | ⟨0, _⟩ => show win0_2.index t (0 : Fin 3) * 1 + 1 * p.val = t.val; omega
  | ⟨1, _⟩ => show win0_2.index t (1 : Fin 3) * 16 + 1 * s.val = s.val; omega
  | ⟨2, _⟩ => show win0_2.index t (2 : Fin 3) * 128 + 1 * d.val = d.val; omega

theorem vFresh_slab (c : Dev nD) (t : Fin cfg0.N) (p : Fin 1) (s : Fin 16) (d : Fin 128) :
    (iblk m c 3 t : Vec F S1x16x128 .f32) (ix3 p s d) = vFresh m c (ix3 (slabOf t) s d) := by
  obtain ⟨-, -, -, ⟨e0, e1, e2⟩, -⟩ := idx_facts t
  have hp : p.val < 1 := p.isLt
  unfold iblk
  rw [View.read_apply]
  show V m c main_v3 _ = V m c main_v3 _
  refine congrArg (V m c main_v3) (funext fun a => Fin.ext ?_)
  match a with
  | ⟨0, _⟩ => show win0_3.index t (0 : Fin 3) * 1 + 1 * p.val = t.val; omega
  | ⟨1, _⟩ => show win0_3.index t (1 : Fin 3) * 16 + 1 * s.val = s.val; omega
  | ⟨2, _⟩ => show win0_3.index t (2 : Fin 3) * 128 + 1 * d.val = d.val; omega

/-! ## What each point writes back -/

/-- Point `t` writes back slab `t` of the slide of the flattened key arrays. -/
theorem flushed_k (c : Dev nD) (t : Fin cfg0.N) :
    (dats m 0 c).flushed 4 t = ((cfg0.win 4).blk t).view.read (Elt F) (slideRows (kCache m c) (kFresh m c)) := by
  obtain ⟨-, -, -, -, ⟨e0, e1, e2⟩, -⟩ := idx_facts t
  show (cfg0.win 4).cut (grid0.coords t) ((dats m 0 c).after 4 t) = _
  rw [after0_4]
  unfold outsAt0
  dsimp only
  funext j
  refine (congrFun (body_k c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t)) j).trans ?_
  obtain ⟨p, s, d, rfl⟩ : ∃ (p : Fin 1) (s : Fin 4096) (d : Fin 128), j = ix3 p s d := ⟨j 0, j 1, j 2, eq_ix3 j⟩
  have hp : p.val < 1 := p.isLt
  refine (slideRows_slab (kCache m c) (kFresh m c) (iblk m c 0 t) (iblk m c 2 t) (slabOf t) (kCache_slab m c t)
    (kFresh_slab m c t) p s d).trans ?_
  show slideRows (kCache m c) (kFresh m c) (ix3 (slabOf t) s d)
    = slideRows (kCache m c) (kFresh m c) (((cfg0.win 4).blk t).view.emb (ix3 p s d))
  refine congrArg (slideRows (kCache m c) (kFresh m c)) (funext fun a => Fin.ext ?_)
  match a with
  | ⟨0, _⟩ => show t.val = win0_4.index t (0 : Fin 3) * 1 + 1 * p.val; omega
  | ⟨1, _⟩ => show s.val = win0_4.index t (1 : Fin 3) * 4096 + 1 * s.val; omega
  | ⟨2, _⟩ => show d.val = win0_4.index t (2 : Fin 3) * 128 + 1 * d.val; omega

/-- Point `t` writes back slab `t` of the slide of the flattened value arrays. -/
theorem flushed_v (c : Dev nD) (t : Fin cfg0.N) :
    (dats m 0 c).flushed 5 t = ((cfg0.win 5).blk t).view.read (Elt F) (slideRows (vCache m c) (vFresh m c)) := by
  obtain ⟨-, -, -, -, -, e0, e1, e2⟩ := idx_facts t
  show (cfg0.win 5).cut (grid0.coords t) ((dats m 0 c).after 5 t) = _
  rw [after0_5]
  unfold outsAt0
  dsimp only
  funext j
  refine (congrFun (body_v c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t)) j).trans ?_
  obtain ⟨p, s, d, rfl⟩ : ∃ (p : Fin 1) (s : Fin 4096) (d : Fin 128), j = ix3 p s d := ⟨j 0, j 1, j 2, eq_ix3 j⟩
  have hp : p.val < 1 := p.isLt
  refine (slideRows_slab (vCache m c) (vFresh m c) (iblk m c 1 t) (iblk m c 3 t) (slabOf t) (vCache_slab m c t)
    (vFresh_slab m c t) p s d).trans ?_
  show slideRows (vCache m c) (vFresh m c) (ix3 (slabOf t) s d)
    = slideRows (vCache m c) (vFresh m c) (((cfg0.win 5).blk t).view.emb (ix3 p s d))
  refine congrArg (slideRows (vCache m c) (vFresh m c)) (funext fun a => Fin.ext ?_)
  match a with
  | ⟨0, _⟩ => show t.val = win0_5.index t (0 : Fin 3) * 1 + 1 * p.val; omega
  | ⟨1, _⟩ => show s.val = win0_5.index t (1 : Fin 3) * 4096 + 1 * s.val; omega
  | ⟨2, _⟩ => show d.val = win0_5.index t (2 : Fin 3) * 128 + 1 * d.val; omega

/-! ## The 64 slabs cover each output -/

/-- Index (q, s, d) of the key output lies in the slab point `q` writes back. -/
theorem cover_k (i : S64x4096x128.Idx) :
    ∃ t : Fin cfg0.N, (cfg0.win 4).flush t = true ∧ i ∈ ((cfg0.win 4).blk t).view.set := by
  have hN : cfg0.N = 64 := N_0
  have i0 : (i 0).val < 64 := (i 0).isLt
  have i1 : (i 1).val < 4096 := (i 1).isLt
  have i2 : (i 2).val < 128 := (i 2).isLt
  have hq : (i 0).val < cfg0.N := by omega
  obtain ⟨-, -, -, -, ⟨e0, e1, e2⟩, -⟩ := idx_facts ⟨(i 0).val, hq⟩
  have e0 : win0_4.index ⟨(i 0).val, hq⟩ (0 : Fin 3) = (i 0).val := e0
  refine ⟨⟨(i 0).val, hq⟩, flush0_4 _, ?_⟩
  show i ∈ ((View.whole main_v4_0).slice (win0_4.rect ⟨(i 0).val, hq⟩)).set
  rw [View.set_slice_whole, Rect.mem_set_unit]
  intro a
  match a with
  | ⟨0, _⟩ => show win0_4.index ⟨(i 0).val, hq⟩ (0 : Fin 3) * 1 ≤ (i 0).val ∧ (i 0).val < win0_4.index ⟨(i 0).val, hq⟩ (0 : Fin 3) * 1 + 1; omega
  | ⟨1, _⟩ => show win0_4.index ⟨(i 0).val, hq⟩ (1 : Fin 3) * 4096 ≤ (i 1).val ∧ (i 1).val < win0_4.index ⟨(i 0).val, hq⟩ (1 : Fin 3) * 4096 + 4096; omega
  | ⟨2, _⟩ => show win0_4.index ⟨(i 0).val, hq⟩ (2 : Fin 3) * 128 ≤ (i 2).val ∧ (i 2).val < win0_4.index ⟨(i 0).val, hq⟩ (2 : Fin 3) * 128 + 128; omega

/-- The same for the value output. -/
theorem cover_v (i : S64x4096x128.Idx) :
    ∃ t : Fin cfg0.N, (cfg0.win 5).flush t = true ∧ i ∈ ((cfg0.win 5).blk t).view.set := by
  have hN : cfg0.N = 64 := N_0
  have i0 : (i 0).val < 64 := (i 0).isLt
  have i1 : (i 1).val < 4096 := (i 1).isLt
  have i2 : (i 2).val < 128 := (i 2).isLt
  have hq : (i 0).val < cfg0.N := by omega
  obtain ⟨-, -, -, -, -, e0, e1, e2⟩ := idx_facts ⟨(i 0).val, hq⟩
  have e0 : win0_5.index ⟨(i 0).val, hq⟩ (0 : Fin 3) = (i 0).val := e0
  refine ⟨⟨(i 0).val, hq⟩, flush0_5 _, ?_⟩
  show i ∈ ((View.whole main_v4_1).slice (win0_5.rect ⟨(i 0).val, hq⟩)).set
  rw [View.set_slice_whole, Rect.mem_set_unit]
  intro a
  match a with
  | ⟨0, _⟩ => show win0_5.index ⟨(i 0).val, hq⟩ (0 : Fin 3) * 1 ≤ (i 0).val ∧ (i 0).val < win0_5.index ⟨(i 0).val, hq⟩ (0 : Fin 3) * 1 + 1; omega
  | ⟨1, _⟩ => show win0_5.index ⟨(i 0).val, hq⟩ (1 : Fin 3) * 4096 ≤ (i 1).val ∧ (i 1).val < win0_5.index ⟨(i 0).val, hq⟩ (1 : Fin 3) * 4096 + 4096; omega
  | ⟨2, _⟩ => show win0_5.index ⟨(i 0).val, hq⟩ (2 : Fin 3) * 128 ≤ (i 2).val ∧ (i 2).val < win0_5.index ⟨(i 0).val, hq⟩ (2 : Fin 3) * 128 + 128; omega

/-! ## The output arrays after the grid, and the results after the unflattening -/

/-- The key output array ends as the slide of the flattened key cache by the flattened fresh keys. -/
theorem final_k (c : Dev nD) : (dats m 0 c).arrAt 4 cfg0.N = slideRows (kCache m c) (kFresh m c) :=
  (dats m 0 c).arrAt_eq_of_cover 4 (slideRows (kCache m c) (kFresh m c)) (fun t _ => flushed_k m c t) cover_k

/-- The value output array ends as the slide of the flattened value cache by the flattened fresh values. -/
theorem final_v (c : Dev nD) : (dats m 0 c).arrAt 5 cfg0.N = slideRows (vCache m c) (vFresh m c) :=
  (dats m 0 c).arrAt_eq_of_cover 5 (slideRows (vCache m c) (vFresh m c)) (fun t _ => flushed_v m c t) cover_v

/-- The first result is the key output array unflattened. -/
theorem tail_k (c : Dev nD) : Pipeline.afterTail₀ cfgs (dats m) 0 (V0 m) [hostOps1] c main_v5
    = shapeCast S2x32x4096x128 (slideRows (kCache m c) (kFresh m c)) shapeCasts_S64x4096x128_S2x32x4096x128 := by
  unfold Pipeline.afterTail₀
  show StableHlo.after hostOps1 _ (Proc.devRef .tc main_v5) = _
  after_results
  exact congrArg (fun x => shapeCast S2x32x4096x128 x shapeCasts_S64x4096x128_S2x32x4096x128)
    ((Pipeline.withArrays_arr spec0 launch0.win.arr_inj c _ _ 4).trans (final_k m c))

/-- The second result is the value output array unflattened. -/
theorem tail_v (c : Dev nD) : Pipeline.afterTail₀ cfgs (dats m) 0 (V0 m) [hostOps1] c main_v6
    = shapeCast S2x32x4096x128 (slideRows (vCache m c) (vFresh m c)) shapeCasts_S64x4096x128_S2x32x4096x128 := by
  unfold Pipeline.afterTail₀
  show StableHlo.after hostOps1 _ (Proc.devRef .tc main_v6) = _
  after_results
  exact congrArg (fun x => shapeCast S2x32x4096x128 x shapeCasts_S64x4096x128_S2x32x4096x128)
    ((Pipeline.withArrays_arr spec0 launch0.win.arr_inj c _ _ 5).trans (final_v m c))

/-- Flatten, slide the slabs, unflatten: the slide of the key arguments themselves. -/
theorem result_k (c : Dev nD) :
    shapeCast S2x32x4096x128 (slideRows (kCache m c) (kFresh m c)) shapeCasts_S64x4096x128_S2x32x4096x128
      = slide (α := Elt F .f32) (m ((c : Thread nD τ).loc main_arg0)) (m ((c : Thread nD τ).loc main_arg2)) := by
  rw [kCache_eq, kFresh_eq]
  exact reshape_slideRows (α := Elt F .f32) _ _ _ _ _

/-- The same for the value arguments. -/
theorem result_v (c : Dev nD) :
    shapeCast S2x32x4096x128 (slideRows (vCache m c) (vFresh m c)) shapeCasts_S64x4096x128_S2x32x4096x128
      = slide (α := Elt F .f32) (m ((c : Thread nD τ).loc main_arg1)) (m ((c : Thread nD τ).loc main_arg3)) := by
  rw [vCache_eq, vFresh_eq]
  exact reshape_slideRows (α := Elt F .f32) _ _ _ _ _

/-! ## The run, read -/

/-- Every run of the kernel's program ends with the new key cache at the slide of the key cache by the fresh keys, the
    new value cache at the slide of the value cache by the fresh values, and its four arguments as they were. -/
theorem run : θ_run defs (onTc (τ := τ) (main (F := F))) ⟨m, fun _ => 0, ρ⟩ fun r => ∀ c : Dev nD,
      r.2.mem ((c.tc : Thread nD τ).loc main_v5)
        = slide (α := Elt F .f32) (m ((c.tc : Thread nD τ).loc main_arg0)) (m ((c.tc : Thread nD τ).loc main_arg2))
      ∧ r.2.mem ((c.tc : Thread nD τ).loc main_v6)
        = slide (α := Elt F .f32) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans ((tail_k m c).trans (result_k m c)),
      ((h c).2 main_v6 (Pipeline.mem_restRefs_of main_v6 (by decide) (by decide))).trans ((tail_v m c).trans (result_v m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Slab

end
-- ==== Proof.RefSide.lean ====
/-
  The reference, read: it joins the fresh rows after the cache along the row axis and keeps rows 16 … 4111 of the
  4112, for the keys and for the values. That is the slide of the cache by the fresh rows (`Cert.Slide.slice_concat`),
  so each result of its run is `slide` of two of its arguments.
-/
import proofs.«107594_j4810363372411_1_alg».proof.Defs
import proofs.«107594_j4810363372411_1_alg».proof.Proof.Gen.ReferenceIdeal.Run
import proofs.«107594_j4810363372411_1_alg».proof.Proof.SlideSpec

noncomputable section

open Idealize.ShloMosaic Idealize.ShloMosaic.TcCoe Idealize.SL.Sem

namespace Cert.ReferenceIdeal.Slid

open Cert.ReferenceIdeal Cert.ReferenceIdeal.Gen Cert.Slide

variable {F : FTy → Type} [FloatOps F]

/-- Every run of the reference ends with the new key cache at the slide of the key cache by the fresh keys, the new
    value cache at the slide of the value cache by the fresh values, and its four arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
        = slide (α := Elt F .f32) (m ((c.tc : Thread nD τ).loc main_arg0)) (m ((c.tc : Thread nD τ).loc main_arg2))
      ∧ r.2.mem ((c.tc : Thread nD τ).loc main_v3)
        = slide (α := Elt F .f32) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans (slice_concat (α := Elt F .f32) _ _ _ _), (h c).2.1.trans (slice_concat (α := Elt F .f32) _ _ _ _), (h c).2.2⟩)
    (Cert.ReferenceIdeal.Value.run (F := F) m ρ)

end Cert.ReferenceIdeal.Slid

end
-- ==== Proof.lean ====
/-
  The kernel appends 16 fresh rows to a 4096-row key cache and value cache and drops the 16 oldest rows: a pure copy,
  no arithmetic. Row `s` of each result is row `s + 16` of the cache while `s < 4080` and fresh row `s - 4080` after
  (`Cert.Slide.slide`, Proof/SlideSpec.lean).

  The kernel flattens (batch, head), lets grid point `t` copy slab `t` with the rows moved, and unflattens; its run
  ends with both results at the slide of its arguments (Proof/KernelSlab.lean for one point, Proof/KernelRun.lean for
  the arrays). The reference joins the fresh rows after the cache and keeps rows 16 … 4111, which is the same slide
  (Proof/RefSide.lean). So from memories that agree on the four arguments both runs end with equal results: no law
  of the extended reals is needed, and the inputs' finiteness is never used.

  The idealization rewrote nothing, so `preserves` is `True`; the kernel's two frames are the generated ones, and the
  reference's frame is its run with the results dropped.
-/
import proofs.«107594_j4810363372411_1_alg».proof.Defs
import proofs.«107594_j4810363372411_1_alg».proof.Proof.Gen.Kernel
import proofs.«107594_j4810363372411_1_alg».proof.Proof.Gen.Kernel.Frame
import proofs.«107594_j4810363372411_1_alg».proof.Proof.Gen.KernelIdeal
import proofs.«107594_j4810363372411_1_alg».proof.Proof.Gen.KernelIdeal.Frame
import proofs.«107594_j4810363372411_1_alg».proof.Proof.Gen.ReferenceIdeal
import proofs.«107594_j4810363372411_1_alg».proof.Proof.Gen.ReferenceIdeal.Run
import proofs.«107594_j4810363372411_1_alg».proof.Proof.Gen.Pre_finite_inputs
import proofs.«107594_j4810363372411_1_alg».proof.Proof.KernelRun
import proofs.«107594_j4810363372411_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- Both programs end with their two results at the slide of the arguments; the arguments agree, so the results do. -/
theorem algebraic : Cert.algebraic_KernelIdeal_ReferenceIdeal := by
  intro m ρ m' ρ' _ hagree
  refine ⟨_, _, Cert.KernelIdeal.Slab.run (F := Ideal) m ρ, ?_⟩
  refine (θ_run Cert.ReferenceIdeal.defs _ _).mono (fun _ h c => ?_) (Cert.ReferenceIdeal.Slid.run (F := Ideal) m' ρ')
  obtain ⟨hk, hv, hargs⟩ := h c
  obtain ⟨a0, a1, a2, a3⟩ := hagree c
  refine ⟨hk.trans ?_, hv.trans ?_, hargs⟩
  · rw [a0, a2]
  · rw [a1, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
